-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x128 : Shape := ⟨3, ![32, 64, 128]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S32x64x128 : S_.BroadcastsInDim S32x64x128 (![] : Fin 0 → Fin S32x64x128.rank)
  reducesTo_S32x64x128_S_d0_1_2 : S32x64x128.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S32x64x128 .f32) (main_arg1 : FVec F S256x128 .f32) (main_arg2 : FVec F S128 .f32) (main_arg3 : FVec F S128x128 .f32) (main_arg4 : FVec F S128 .f32) : IVec S_ 1 :=
  let main_v0 : FVec F S32x64x128 .f32 := Host.absf main_arg0
  let main_cst : FVec F S_ .f32 := constant S_ .f32 0x7F800000#32
  let main_v1 : FVec F S32x64x128 .f32 := broadcastInDim S32x64x128 ![] bcast_S_S32x64x128 main_cst
  let main_v2 : IVec S32x64x128 1 := cmpf .olt main_v0 main_v1
  let main_c : IVec S_ 1 := constantI S_ 1 1#1
  let main_v3 : IVec S_ 1 := (fun x v => Host.reduce IntOp.andi x v reducesTo_S32x64x128_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S32x64x128 : Shape := ⟨3, ![32, 64, 128]⟩
abbrev S256x128 : Shape := ⟨2, ![256, 128]⟩
abbrev S128 : Shape := ⟨1, ![128]⟩
abbrev S128x128 : Shape := ⟨2, ![128, 128]⟩
abbrev S32x4096x128 : Shape := ⟨3, ![32, 4096, 128]⟩
abbrev S1x64x128 : Shape := ⟨3, ![1, 64, 128]⟩
abbrev S1x4096x128 : Shape := ⟨3, ![1, 4096, 128]⟩
abbrev S64x128 : Shape := ⟨2, ![64, 128]⟩
abbrev S64x1x128 : Shape := ⟨3, ![64, 1, 128]⟩
abbrev S64x64x128 : Shape := ⟨3, ![64, 64, 128]⟩
abbrev S1x1x128 : Shape := ⟨3, ![1, 1, 128]⟩
abbrev S4096x128 : Shape := ⟨2, ![4096, 128]⟩
abbrev S1x128 : Shape := ⟨2, ![1, 128]⟩

abbrev nBuf : Space → Nat
  | .hbm => 8
  | .vmem => 9
  | .smem => 0
  | _ => 0

abbrev bufTy : (tb : Table) → Fin (tcTables nBuf tb) → BufTy
  | .hbm, ⟨0, _⟩ => ⟨S32x64x128, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S32x4096x128, .f32⟩
  | .local _ .vmem, ⟨0, _⟩ => ⟨S1x64x128, .f32⟩
  | .local _ .vmem, ⟨1, _⟩ => ⟨S1x64x128, .f32⟩
  | .local _ .vmem, ⟨2, _⟩ => ⟨S128x128, .f32⟩
  | .local _ .vmem, ⟨3, _⟩ => ⟨S128x128, .f32⟩
  | .local _ .vmem, ⟨4, _⟩ => ⟨S128, .f32⟩
  | .local _ .vmem, ⟨5, _⟩ => ⟨S128x128, .f32⟩
  | .local _ .vmem, ⟨6, _⟩ => ⟨S128, .f32⟩
  | .local _ .vmem, ⟨7, _⟩ => ⟨S1x4096x128, .f32⟩
  | .local _ .vmem, ⟨8, _⟩ => ⟨S1x4096x128, .f32⟩
  | _, _ => ⟨S32x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S256x128_S128x128_0_0 : S256x128.Slices ![0, 0] S128x128
  slices_S256x128_S128x128_128_0 : S256x128.Slices ![128, 0] S128x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  bitsLt_bf16_f32 : FTy.bits .bf16 < FTy.bits .f32
  shapeCasts_S64x128_S64x1x128 : S64x128.ShapeCasts S64x1x128
  shapeCasts_S64x128_S1x64x128 : S64x128.ShapeCasts S1x64x128
  broadcasts_S64x1x128_S64x64x128 : S64x1x128.Broadcasts S64x64x128
  broadcasts_S1x64x128_S64x64x128 : S1x64x128.Broadcasts S64x64x128
  shapeCasts_S128_S1x1x128 : S128.ShapeCasts S1x1x128
  broadcasts_S1x1x128_S64x64x128 : S1x1x128.Broadcasts S64x64x128
  shapeCasts_S64x64x128_S4096x128 : S64x64x128.ShapeCasts S4096x128
  shapeCasts_S128_S1x128 : S128.ShapeCasts S1x128
  broadcasts_S1x128_S4096x128 : S1x128.Broadcasts S4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  dot_S64x128_S128x128_S64x128_1_0_0_1_n_n_wf : DotDims.WF S64x128 S128x128 S64x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S32x64x128.size a
  hwx0_0 : ∀ i : grid0.Coords, EltTy.bits .f32 = 32 ∨ (Rect.block (s := S32x64x128) S1x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4096x128.size a ≤ S32x4096x128.size a
  hwx0_6 : ∀ i : grid0.Coords, EltTy.bits .f32 = 32 ∨ (Rect.block (s := S32x4096x128) S1x4096x128.size (cc0_transform_6 i) (hinb0_6 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x64x128 : Shape := ⟨3, ![32, 64, 128]⟩
abbrev S256x128 : Shape := ⟨2, ![256, 128]⟩
abbrev S128 : Shape := ⟨1, ![128]⟩
abbrev S128x128 : Shape := ⟨2, ![128, 128]⟩
abbrev S32x64x1x128 : Shape := ⟨4, ![32, 64, 1, 128]⟩
abbrev S32x64x64x128 : Shape := ⟨4, ![32, 64, 64, 128]⟩
abbrev S32x1x64x128 : Shape := ⟨4, ![32, 1, 64, 128]⟩
abbrev S32x64x64x256 : Shape := ⟨4, ![32, 64, 64, 256]⟩
abbrev S131072x256 : Shape := ⟨2, ![131072, 256]⟩
abbrev S131072x128 : Shape := ⟨2, ![131072, 128]⟩
abbrev S1x128 : Shape := ⟨2, ![1, 128]⟩
abbrev S_ : Shape := ⟨0, ![]⟩
abbrev S32x4096x128 : Shape := ⟨3, ![32, 4096, 128]⟩

abbrev nBuf : Space → Nat
  | .hbm => 44
  | .vmem => 0
  | .smem => 0
  | _ => 0

abbrev bufTy : (tb : Table) → Fin (tcTables nBuf tb) → BufTy
  | .hbm, ⟨0, _⟩ => ⟨S32x64x128, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S32x64x1x128, .f32⟩
  | .hbm, ⟨6, _⟩ => ⟨S32x64x64x128, .f32⟩
  | .hbm, ⟨7, _⟩ => ⟨S32x1x64x128, .f32⟩
  | .hbm, ⟨8, _⟩ => ⟨S32x64x64x128, .f32⟩
  | .hbm, ⟨9, _⟩ => ⟨S32x64x64x256, .f32⟩
  | .hbm, ⟨10, _⟩ => ⟨S131072x256, .f32⟩
  | .hbm, ⟨11, _⟩ => ⟨S32x64x64x256, .f32⟩
  | .hbm, ⟨12, _⟩ => ⟨S131072x256, .f32⟩
  | .hbm, ⟨13, _⟩ => ⟨S131072x128, .f32⟩
  | .hbm, ⟨14, _⟩ => ⟨S1x128, .f32⟩
  | .hbm, ⟨15, _⟩ => ⟨S131072x128, .f32⟩
  | .hbm, ⟨16, _⟩ => ⟨S131072x128, .f32⟩
  | .hbm, ⟨17, _⟩ => ⟨S_, .f32⟩
  | .hbm, ⟨18, _⟩ => ⟨S131072x128, .f32⟩
  | .hbm, ⟨19, _⟩ => ⟨S131072x128, .f32⟩
  | .hbm, ⟨20, _⟩ => ⟨S131072x128, .f32⟩
  | .hbm, ⟨21, _⟩ => ⟨S1x128, .f32⟩
  | .hbm, ⟨22, _⟩ => ⟨S131072x128, .f32⟩
  | .hbm, ⟨23, _⟩ => ⟨S131072x128, .f32⟩
  | .hbm, ⟨24, _⟩ => ⟨S_, .f32⟩
  | .hbm, ⟨25, _⟩ => ⟨S131072x128, .f32⟩
  | .hbm, ⟨26, _⟩ => ⟨S131072x128, .f32⟩
  | .hbm, ⟨27, _⟩ => ⟨S32x4096x128, .f32⟩
  | .hbm, ⟨28, _⟩ => ⟨S131072x128, .f32⟩
  | .hbm, ⟨29, _⟩ => ⟨S1x128, .f32⟩
  | .hbm, ⟨30, _⟩ => ⟨S131072x128, .f32⟩
  | .hbm, ⟨31, _⟩ => ⟨S131072x128, .f32⟩
  | .hbm, ⟨32, _⟩ => ⟨S_, .f32⟩
  | .hbm, ⟨33, _⟩ => ⟨S131072x128, .f32⟩
  | .hbm, ⟨34, _⟩ => ⟨S131072x128, .f32⟩
  | .hbm, ⟨35, _⟩ => ⟨S131072x128, .f32⟩
  | .hbm, ⟨36, _⟩ => ⟨S1x128, .f32⟩
  | .hbm, ⟨37, _⟩ => ⟨S131072x128, .f32⟩
  | .hbm, ⟨38, _⟩ => ⟨S131072x128, .f32⟩
  | .hbm, ⟨39, _⟩ => ⟨S_, .f32⟩
  | .hbm, ⟨40, _⟩ => ⟨S131072x128, .f32⟩
  | .hbm, ⟨41, _⟩ => ⟨S131072x128, .f32⟩
  | .hbm, ⟨42, _⟩ => ⟨S32x4096x128, .f32⟩
  | .hbm, ⟨43, _⟩ => ⟨S32x4096x128, .f32⟩
  | _, _ => ⟨S32x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call1_cst : Ref sig .tc := ⟨.hbm, 24, rfl⟩
abbrev main_call1_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call2_cst : Ref sig .tc := ⟨.hbm, 32, rfl⟩
abbrev main_call2_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call3_cst : Ref sig .tc := ⟨.hbm, 39, rfl⟩
abbrev main_call3_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S32x64x128_S32x64x1x128_0_1_3 : S32x64x128.BroadcastsInDim S32x64x1x128 (![0, 1, 3] : Fin 3 → Fin S32x64x1x128.rank)
  bcast_S32x64x1x128_S32x64x64x128_0_1_2_3 : S32x64x1x128.BroadcastsInDim S32x64x64x128 (![0, 1, 2, 3] : Fin 4 → Fin S32x64x64x128.rank)
  bcast_S32x64x128_S32x1x64x128_0_2_3 : S32x64x128.BroadcastsInDim S32x1x64x128 (![0, 2, 3] : Fin 3 → Fin S32x1x64x128.rank)
  bcast_S32x1x64x128_S32x64x64x128_0_1_2_3 : S32x1x64x128.BroadcastsInDim S32x64x64x128 (![0, 1, 2, 3] : Fin 4 → Fin S32x64x64x128.rank)
  concatenates_S32x64x64x128_S32x64x64x128_S32x64x64x256_d3 : Shape.Concatenates [S32x64x64x128, S32x64x64x128] S32x64x64x256 3
  shapeCasts_S32x64x64x256_S131072x256 : S32x64x64x256.ShapeCasts S131072x256
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  shapeCasts_S131072x128_S32x4096x128 : S131072x128.ShapeCasts S32x4096x128
  dot_S131072x256_S256x128_S131072x128_1_0_0_1_n_n_wf : DotDims.WF S131072x256 S256x128 S131072x128 [1] [0] [0] [1] [] []
  dot_S131072x128_S128x128_S131072x128_1_0_0_1_n_n_wf : DotDims.WF S131072x128 S128x128 S131072x128 [1] [0] [0] [1] [] []

variable [Facts₀]

def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.Spec.lean ====
/-
  The pair MLP, as one function of the argument arrays.

  For a batch `b`, atoms `i j : Fin 64` and an output channel `c`, write `x_i` for row `i` of batch `b` of `x`, `Wa` and
  `Wb` for the top and the bottom 128 rows of `W0`. The first layer of the pair `[x_i, x_j]` is
  `relu (x_i · Wa + x_j · Wb + b0)`: the product of the 256-wide concatenation with `W0` is a sum over 256 terms, which
  splits into the two 128-term sums (`sum_halves`; only commutativity and associativity of `+`, so it holds on the
  extended reals with no finiteness). The second layer is `relu (h · W1 + b1)`, and the result at row `r = 64 i + j` adds
  the two orders of the pair, `[x_i, x_j]` and `[x_j, x_i]`; the second order's first layer is the first one's with `Wa`
  and `Wb` exchanged.
-/
import Idealize.ShloMosaic.PureOps.Ideal
import Idealize.ShloMosaic.Lib.ValueIdx
import Mathlib.Algebra.BigOperators.Fin

noncomputable section

namespace Cert.PairMlp

open Idealize.ShloMosaic Idealize.ShloMosaic.ValueIdx

/-- The word both programs compare against in their ReLUs, as an extended real (never evaluated: the same word on both sides). -/
abbrev zeroW : EReal := Ideal.ofBits .f32 0x00000000#32

/-- `max v 0`, with the zero the programs' own word. -/
def relu (v : EReal) : EReal := max v zeroW

/-- Row `i` of `X` times the 128 × 128 matrix `W`, at column `k`. -/
def proj (X : Fin 64 → Fin 128 → EReal) (W : Fin 128 → Fin 128 → EReal) (i : Fin 64) (k : Fin 128) : EReal :=
  ∑ f : Fin 128, X i f * W f k

/-- The first layer of the pair `(i, j)`: `relu (x_i · Wa + x_j · Wb + β0)`. -/
def hidden (X : Fin 64 → Fin 128 → EReal) (Wa Wb : Fin 128 → Fin 128 → EReal) (β0 : Fin 128 → EReal)
    (i j : Fin 64) (k : Fin 128) : EReal :=
  relu (proj X Wa i k + proj X Wb j k + β0 k)

/-- The second layer of one hidden row: `relu (h · W1 + β1)`. -/
def layer1 (h : Fin 128 → EReal) (W1 : Fin 128 → Fin 128 → EReal) (β1 : Fin 128 → EReal) (c : Fin 128) : EReal :=
  relu ((∑ k : Fin 128, h k * W1 k c) + β1 c)

/-- Row `r` of a batch's 4096 pair rows is the pair `(r / 64, r % 64)`. -/
def rowI (r : Fin 4096) : Fin 64 := ⟨r.val / 64, by have := r.isLt; omega⟩
def rowJ (r : Fin 4096) : Fin 64 := ⟨r.val % 64, by omega⟩

/-- One batch's output at pair row `r` and channel `c`: both orders of the pair through both layers, added. -/
def blockOut (X : Fin 64 → Fin 128 → EReal) (Wa Wb : Fin 128 → Fin 128 → EReal) (β0 : Fin 128 → EReal)
    (W1 : Fin 128 → Fin 128 → EReal) (β1 : Fin 128 → EReal) (r : Fin 4096) (c : Fin 128) : EReal :=
  layer1 (hidden X Wa Wb β0 (rowI r) (rowJ r)) W1 β1 c + layer1 (hidden X Wb Wa β0 (rowI r) (rowJ r)) W1 β1 c

/-- The top and the bottom half of the 256 rows of `W0`. -/
abbrev lo (f : Fin 128) : Fin 256 := ⟨f.val, by have := f.isLt; omega⟩
abbrev hi (f : Fin 128) : Fin 256 := ⟨128 + f.val, by have := f.isLt; omega⟩

/-- The whole result at batch `b`, pair row `r`, channel `c`, from the five argument arrays. -/
def pairAt (x : (⟨3, ![32, 64, 128]⟩ : Shape).Idx → EReal) (W0 : (⟨2, ![256, 128]⟩ : Shape).Idx → EReal)
    (b0 : (⟨1, ![128]⟩ : Shape).Idx → EReal) (W1 : (⟨2, ![128, 128]⟩ : Shape).Idx → EReal)
    (b1 : (⟨1, ![128]⟩ : Shape).Idx → EReal) (b : Fin 32) (r : Fin 4096) (c : Fin 128) : EReal :=
  blockOut (fun i f => x (ix3 b i f)) (fun f k => W0 (ix2 (lo f) k)) (fun f k => W0 (ix2 (hi f) k)) (fun k => b0 (ix1 k))
    (fun k c => W1 (ix2 k c)) (fun c => b1 (ix1 c)) r c

/-- The result array, index by index. -/
def pairOut (x : (⟨3, ![32, 64, 128]⟩ : Shape).Idx → EReal) (W0 : (⟨2, ![256, 128]⟩ : Shape).Idx → EReal)
    (b0 : (⟨1, ![128]⟩ : Shape).Idx → EReal) (W1 : (⟨2, ![128, 128]⟩ : Shape).Idx → EReal)
    (b1 : (⟨1, ![128]⟩ : Shape).Idx → EReal) : (⟨3, ![32, 4096, 128]⟩ : Shape).Idx → EReal :=
  fun o => pairAt x W0 b0 W1 b1 (o 0) (o 1) (o 2)

theorem pairOut_ix3 (x : (⟨3, ![32, 64, 128]⟩ : Shape).Idx → EReal) (W0 : (⟨2, ![256, 128]⟩ : Shape).Idx → EReal)
    (b0 : (⟨1, ![128]⟩ : Shape).Idx → EReal) (W1 : (⟨2, ![128, 128]⟩ : Shape).Idx → EReal)
    (b1 : (⟨1, ![128]⟩ : Shape).Idx → EReal) (b : Fin 32) (r : Fin 4096) (c : Fin 128) :
    pairOut x W0 b0 W1 b1 (ix3 b r c) = pairAt x W0 b0 W1 b1 b r c := rfl

/-- A sum over 256 terms is the sum over its first 128 plus the sum over its last 128. -/
theorem sum_halves {M : Type*} [AddCommMonoid M] (g : Fin 256 → M) :
    ∑ k : Fin 256, g k = ∑ f : Fin 128, g (lo f) + ∑ f : Fin 128, g (hi f) :=
  Fin.sum_univ_add (a := 128) (b := 128) g

end Cert.PairMlp

end
-- ==== Proof.RefValue.lean ====
/-
  The reference's result is the pair MLP of the argument arrays, index by index.

  Row `n = 4096 b + r` of the 131072 pair rows is batch `b`, pair `(i, j) = (r / 64, r % 64)`. The reference lays
  `[x_i, x_j]` (first order) and `[x_j, x_i]` (second order) side by side on a 256-wide axis: a column below 128 reads
  the first piece, a column from 128 on the second. The product with `W0` over the 256 columns is then the sum of the
  two 128-term products with the top and the bottom half of `W0` (`sum_halves`). The rest is pointwise: bias, `max`
  against the zero word, the second product with `W1`, bias, `max`, and the sum of the two orders.
-/
import proofs.«138209_j10505490006485_1_alg».proof.Proof.Gen.ReferenceIdeal.Read
import proofs.«138209_j10505490006485_1_alg».proof.Proof.Spec
import Idealize.ShloMosaic.Lib.Pipeline.Value
import Idealize.ShloMosaic.Lib.ValueIdx
import Idealize.ShloMosaic.PureOps.Ideal.Laws

noncomputable section

namespace Cert.PairMlp.Ref

open Cert.ReferenceIdeal Cert.ReferenceIdeal.Read Idealize.ShloMosaic Idealize.ShloMosaic.ValueIdx Cert.PairMlp

variable (x : (⟨S32x64x128, .f32⟩ : BufTy).Contents (Elt Ideal)) (W0 : (⟨S256x128, .f32⟩ : BufTy).Contents (Elt Ideal))
  (b0 : (⟨S128, .f32⟩ : BufTy).Contents (Elt Ideal)) (W1 : (⟨S128x128, .f32⟩ : BufTy).Contents (Elt Ideal))
  (b1 : (⟨S128, .f32⟩ : BufTy).Contents (Elt Ideal))

/-- Pair row `r` of batch `b` among all 131072 rows. -/
def flat (b : Fin 32) (r : Fin 4096) : Fin 131072 := ⟨b.val * 4096 + r.val, by have := b.isLt; have := r.isLt; omega⟩

/-! ## The concatenated operands, read at a row and a column -/

/-- First order, a column of the first half: the first atom's feature. -/
theorem cat0_lo (b : Fin 32) (r : Fin 4096) (f : Fin 128) :
    val_main_v5 (F := Ideal) x (ix2 (flat b r) (lo f)) = x (ix3 b (rowI r) f) := by
  have hb := b.isLt; have hr := r.isLt; have hf := f.isLt
  rw [val_main_v5_apply]
  unfold val_main_v4
  refine (concatenate_pair_apply_left (t := S32x64x64x256) (s₁ := S32x64x64x128) (s₂ := S32x64x64x128) _ _ _ _ _ rfl
    (ix4 b (rowI r) (rowJ r) f) (fun a => ?_)).trans ?_
  · match a with
    | ⟨0, _⟩ => show b.val = ((b.val * 4096 + r.val) * 256 + f.val) / 1048576; omega
    | ⟨1, _⟩ => show r.val / 64 = ((b.val * 4096 + r.val) * 256 + f.val) / 16384 % 64; omega
    | ⟨2, _⟩ => show r.val % 64 = ((b.val * 4096 + r.val) * 256 + f.val) / 256 % 64; omega
    | ⟨3, _⟩ => show f.val = ((b.val * 4096 + r.val) * 256 + f.val) % 256; omega
  · rw [val_main_v1_apply, val_main_v0_apply]
    exact congrArg x (funext fun a => Fin.ext (by match a with | ⟨0, _⟩ => rfl | ⟨1, _⟩ => rfl | ⟨2, _⟩ => rfl))

/-- First order, a column of the second half: the second atom's feature. -/
theorem cat0_hi (b : Fin 32) (r : Fin 4096) (f : Fin 128) :
    val_main_v5 (F := Ideal) x (ix2 (flat b r) (hi f)) = x (ix3 b (rowJ r) f) := by
  have hb := b.isLt; have hr := r.isLt; have hf := f.isLt
  rw [val_main_v5_apply]
  unfold val_main_v4
  refine (concatenate_pair_apply_right (t := S32x64x64x256) (s₁ := S32x64x64x128) (s₂ := S32x64x64x128) _ _ _ _ _ rfl rfl
    (ix4 b (rowI r) (rowJ r) f) (fun a ha => ?_) ?_).trans ?_
  · match a with
    | ⟨0, _⟩ => show b.val = ((b.val * 4096 + r.val) * 256 + (128 + f.val)) / 1048576; omega
    | ⟨1, _⟩ => show r.val / 64 = ((b.val * 4096 + r.val) * 256 + (128 + f.val)) / 16384 % 64; omega
    | ⟨2, _⟩ => show r.val % 64 = ((b.val * 4096 + r.val) * 256 + (128 + f.val)) / 256 % 64; omega
    | ⟨3, _⟩ => exact absurd rfl ha
  · show f.val + 128 = ((b.val * 4096 + r.val) * 256 + (128 + f.val)) % 256; omega
  · rw [val_main_v3_apply, val_main_v2_apply]
    exact congrArg x (funext fun a => Fin.ext (by match a with | ⟨0, _⟩ => rfl | ⟨1, _⟩ => rfl | ⟨2, _⟩ => rfl))

/-- Second order, a column of the first half: the second atom's feature. -/
theorem cat1_lo (b : Fin 32) (r : Fin 4096) (f : Fin 128) :
    val_main_v7 (F := Ideal) x (ix2 (flat b r) (lo f)) = x (ix3 b (rowJ r) f) := by
  have hb := b.isLt; have hr := r.isLt; have hf := f.isLt
  rw [val_main_v7_apply]
  unfold val_main_v6
  refine (concatenate_pair_apply_left (t := S32x64x64x256) (s₁ := S32x64x64x128) (s₂ := S32x64x64x128) _ _ _ _ _ rfl
    (ix4 b (rowI r) (rowJ r) f) (fun a => ?_)).trans ?_
  · match a with
    | ⟨0, _⟩ => show b.val = ((b.val * 4096 + r.val) * 256 + f.val) / 1048576; omega
    | ⟨1, _⟩ => show r.val / 64 = ((b.val * 4096 + r.val) * 256 + f.val) / 16384 % 64; omega
    | ⟨2, _⟩ => show r.val % 64 = ((b.val * 4096 + r.val) * 256 + f.val) / 256 % 64; omega
    | ⟨3, _⟩ => show f.val = ((b.val * 4096 + r.val) * 256 + f.val) % 256; omega
  · rw [val_main_v3_apply, val_main_v2_apply]
    exact congrArg x (funext fun a => Fin.ext (by match a with | ⟨0, _⟩ => rfl | ⟨1, _⟩ => rfl | ⟨2, _⟩ => rfl))

/-- Second order, a column of the second half: the first atom's feature. -/
theorem cat1_hi (b : Fin 32) (r : Fin 4096) (f : Fin 128) :
    val_main_v7 (F := Ideal) x (ix2 (flat b r) (hi f)) = x (ix3 b (rowI r) f) := by
  have hb := b.isLt; have hr := r.isLt; have hf := f.isLt
  rw [val_main_v7_apply]
  unfold val_main_v6
  refine (concatenate_pair_apply_right (t := S32x64x64x256) (s₁ := S32x64x64x128) (s₂ := S32x64x64x128) _ _ _ _ _ rfl rfl
    (ix4 b (rowI r) (rowJ r) f) (fun a ha => ?_) ?_).trans ?_
  · match a with
    | ⟨0, _⟩ => show b.val = ((b.val * 4096 + r.val) * 256 + (128 + f.val)) / 1048576; omega
    | ⟨1, _⟩ => show r.val / 64 = ((b.val * 4096 + r.val) * 256 + (128 + f.val)) / 16384 % 64; omega
    | ⟨2, _⟩ => show r.val % 64 = ((b.val * 4096 + r.val) * 256 + (128 + f.val)) / 256 % 64; omega
    | ⟨3, _⟩ => exact absurd rfl ha
  · show f.val + 128 = ((b.val * 4096 + r.val) * 256 + (128 + f.val)) % 256; omega
  · rw [val_main_v1_apply, val_main_v0_apply]
    exact congrArg x (funext fun a => Fin.ext (by match a with | ⟨0, _⟩ => rfl | ⟨1, _⟩ => rfl | ⟨2, _⟩ => rfl))

/-! ## The products' operand indices at a row and a column -/

theorem lidx8 (n : Fin 131072) (k : Fin 128) (q : Fin 256) : lidx_main_v8 (ix2 n k) q = ix2 n q :=
  funext fun a => Fin.ext (by match a with | ⟨0, _⟩ => rfl | ⟨1, _⟩ => rfl)
theorem ridx8 (n : Fin 131072) (k : Fin 128) (q : Fin 256) : ridx_main_v8 (ix2 n k) q = ix2 q k :=
  funext fun a => Fin.ext (by match a with | ⟨0, _⟩ => rfl | ⟨1, _⟩ => rfl)
theorem lidx19 (n : Fin 131072) (k : Fin 128) (q : Fin 256) : lidx_main_v19 (ix2 n k) q = ix2 n q :=
  funext fun a => Fin.ext (by match a with | ⟨0, _⟩ => rfl | ⟨1, _⟩ => rfl)
theorem ridx19 (n : Fin 131072) (k : Fin 128) (q : Fin 256) : ridx_main_v19 (ix2 n k) q = ix2 q k :=
  funext fun a => Fin.ext (by match a with | ⟨0, _⟩ => rfl | ⟨1, _⟩ => rfl)
theorem lidx13 (n : Fin 131072) (c : Fin 128) (q : Fin 128) : lidx_main_v13 (ix2 n c) q = ix2 n q :=
  funext fun a => Fin.ext (by match a with | ⟨0, _⟩ => rfl | ⟨1, _⟩ => rfl)
theorem ridx13 (n : Fin 131072) (c : Fin 128) (q : Fin 128) : ridx_main_v13 (ix2 n c) q = ix2 q c :=
  funext fun a => Fin.ext (by match a with | ⟨0, _⟩ => rfl | ⟨1, _⟩ => rfl)
theorem lidx24 (n : Fin 131072) (c : Fin 128) (q : Fin 128) : lidx_main_v24 (ix2 n c) q = ix2 n q :=
  funext fun a => Fin.ext (by match a with | ⟨0, _⟩ => rfl | ⟨1, _⟩ => rfl)
theorem ridx24 (n : Fin 131072) (c : Fin 128) (q : Fin 128) : ridx_main_v24 (ix2 n c) q = ix2 q c :=
  funext fun a => Fin.ext (by match a with | ⟨0, _⟩ => rfl | ⟨1, _⟩ => rfl)

/-! ## The first layer -/

/-- The atoms of batch `b`, and the two halves of `W0`, as the pair MLP takes them. -/
abbrev Xb (b : Fin 32) : Fin 64 → Fin 128 → EReal := fun i f => x (ix3 b i f)
abbrev Wa : Fin 128 → Fin 128 → EReal := fun f k => W0 (ix2 (lo f) k)
abbrev Wb : Fin 128 → Fin 128 → EReal := fun f k => W0 (ix2 (hi f) k)

/-- First order: the 256-term product is `x_i · Wa + x_j · Wb`. -/
theorem pre0 (b : Fin 32) (r : Fin 4096) (k : Fin 128) :
    val_main_v8 (F := Ideal) x W0 (ix2 (flat b r) k)
      = proj (Xb x b) (Wa W0) (rowI r) k + proj (Xb x b) (Wb W0) (rowJ r) k := by
  rw [val_main_v8_apply, sum_halves]
  unfold proj
  refine congrArg₂ (· + ·) (Finset.sum_congr rfl fun f _ => ?_) (Finset.sum_congr rfl fun f _ => ?_)
  · rw [lidx8, ridx8, cat0_lo]
  · rw [lidx8, ridx8, cat0_hi]

/-- Second order: the 256-term product is `x_j · Wa + x_i · Wb`. -/
theorem pre1 (b : Fin 32) (r : Fin 4096) (k : Fin 128) :
    val_main_v19 (F := Ideal) x W0 (ix2 (flat b r) k)
      = proj (Xb x b) (Wa W0) (rowJ r) k + proj (Xb x b) (Wb W0) (rowI r) k := by
  rw [val_main_v19_apply, sum_halves]
  unfold proj
  refine congrArg₂ (· + ·) (Finset.sum_congr rfl fun f _ => ?_) (Finset.sum_congr rfl fun f _ => ?_)
  · rw [lidx19, ridx19, cat1_lo]
  · rw [lidx19, ridx19, cat1_hi]

/-- A bias row broadcast over all pair rows reads its column. -/
theorem bias10 (n : Fin 131072) (k : Fin 128) : val_main_v10 (F := Ideal) b0 (ix2 n k) = b0 (ix1 k) := by
  rw [val_main_v10_apply, val_main_v9_apply]
  exact congrArg b0 (funext fun a => Fin.ext (by match a with | ⟨0, _⟩ => rfl))
theorem bias21 (n : Fin 131072) (k : Fin 128) : val_main_v21 (F := Ideal) b0 (ix2 n k) = b0 (ix1 k) := by
  rw [val_main_v21_apply, val_main_v20_apply]
  exact congrArg b0 (funext fun a => Fin.ext (by match a with | ⟨0, _⟩ => rfl))
theorem bias15 (n : Fin 131072) (k : Fin 128) : val_main_v15 (F := Ideal) b1 (ix2 n k) = b1 (ix1 k) := by
  rw [val_main_v15_apply, val_main_v14_apply]
  exact congrArg b1 (funext fun a => Fin.ext (by match a with | ⟨0, _⟩ => rfl))
theorem bias26 (n : Fin 131072) (k : Fin 128) : val_main_v26 (F := Ideal) b1 (ix2 n k) = b1 (ix1 k) := by
  rw [val_main_v26_apply, val_main_v25_apply]
  exact congrArg b1 (funext fun a => Fin.ext (by match a with | ⟨0, _⟩ => rfl))

/-- The four ReLUs' zero splats are the zero word everywhere. -/
theorem zero_call0 (i : S131072x128.Idx) : val_main_call0_v0 (F := Ideal) i = zeroW := by
  rw [val_main_call0_v0_apply, val_main_call0_cst_apply]; rfl
theorem zero_call1 (i : S131072x128.Idx) : val_main_call1_v0 (F := Ideal) i = zeroW := by
  rw [val_main_call1_v0_apply, val_main_call1_cst_apply]; rfl
theorem zero_call2 (i : S131072x128.Idx) : val_main_call2_v0 (F := Ideal) i = zeroW := by
  rw [val_main_call2_v0_apply, val_main_call2_cst_apply]; rfl
theorem zero_call3 (i : S131072x128.Idx) : val_main_call3_v0 (F := Ideal) i = zeroW := by
  rw [val_main_call3_v0_apply, val_main_call3_cst_apply]; rfl

/-- First order's hidden row. -/
theorem hid0 (b : Fin 32) (r : Fin 4096) (k : Fin 128) :
    val_main_v12 (F := Ideal) x W0 b0 (ix2 (flat b r) k)
      = hidden (Xb x b) (Wa W0) (Wb W0) (fun k => b0 (ix1 k)) (rowI r) (rowJ r) k := by
  rw [val_main_v12_apply, val_main_v11_apply, pre0, bias10, zero_call0]
  rfl

/-- Second order's hidden row: the first order's with the halves of `W0` exchanged (`+` commutes). -/
theorem hid1 (b : Fin 32) (r : Fin 4096) (k : Fin 128) :
    val_main_v23 (F := Ideal) x W0 b0 (ix2 (flat b r) k)
      = hidden (Xb x b) (Wb W0) (Wa W0) (fun k => b0 (ix1 k)) (rowI r) (rowJ r) k := by
  rw [val_main_v23_apply, val_main_v22_apply, pre1, bias21, zero_call2,
    add_comm (proj (Xb x b) (Wa W0) (rowJ r) k) (proj (Xb x b) (Wb W0) (rowI r) k)]
  rfl

/-! ## The second layer -/

theorem out0 (b : Fin 32) (r : Fin 4096) (c : Fin 128) :
    val_main_v17 (F := Ideal) x W0 b0 W1 b1 (ix2 (flat b r) c)
      = layer1 (hidden (Xb x b) (Wa W0) (Wb W0) (fun k => b0 (ix1 k)) (rowI r) (rowJ r)) (fun k c => W1 (ix2 k c)) (fun c => b1 (ix1 c)) c := by
  rw [val_main_v17_apply, val_main_v16_apply, val_main_v13_apply, bias15, zero_call1]
  unfold layer1
  refine congrArg (fun s => relu (s + b1 (ix1 c))) (Finset.sum_congr rfl fun k _ => ?_)
  rw [lidx13, ridx13, hid0]

theorem out1 (b : Fin 32) (r : Fin 4096) (c : Fin 128) :
    val_main_v28 (F := Ideal) x W0 b0 W1 b1 (ix2 (flat b r) c)
      = layer1 (hidden (Xb x b) (Wb W0) (Wa W0) (fun k => b0 (ix1 k)) (rowI r) (rowJ r)) (fun k c => W1 (ix2 k c)) (fun c => b1 (ix1 c)) c := by
  rw [val_main_v28_apply, val_main_v27_apply, val_main_v24_apply, bias26, zero_call3]
  unfold layer1
  refine congrArg (fun s => relu (s + b1 (ix1 c))) (Finset.sum_congr rfl fun k _ => ?_)
  rw [lidx24, ridx24, hid1]

/-- The reshape back to batches: row `r` of batch `b` is row `4096 b + r`. -/
theorem unflat18 (b : Fin 32) (r : Fin 4096) (c : Fin 128) : idx_main_v18 (ix3 b r c) = ix2 (flat b r) c := by
  have hb := b.isLt; have hr := r.isLt; have hc := c.isLt
  refine funext fun a => Fin.ext ?_
  match a with
  | ⟨0, _⟩ => show ((b.val * 4096 + r.val) * 128 + c.val) / 128 = b.val * 4096 + r.val; omega
  | ⟨1, _⟩ => show ((b.val * 4096 + r.val) * 128 + c.val) % 128 = c.val; omega
theorem unflat29 (b : Fin 32) (r : Fin 4096) (c : Fin 128) : idx_main_v29 (ix3 b r c) = ix2 (flat b r) c := by
  have hb := b.isLt; have hr := r.isLt; have hc := c.isLt
  refine funext fun a => Fin.ext ?_
  match a with
  | ⟨0, _⟩ => show ((b.val * 4096 + r.val) * 128 + c.val) / 128 = b.val * 4096 + r.val; omega
  | ⟨1, _⟩ => show ((b.val * 4096 + r.val) * 128 + c.val) % 128 = c.val; omega

/-- THE REFERENCE'S RESULT is the pair MLP of the arguments. -/
theorem result_eq : val_main_v30 (F := Ideal) x W0 b0 W1 b1 = pairOut x W0 b0 W1 b1 := by
  funext o
  obtain ⟨b, r, c, rfl⟩ : ∃ (b : Fin 32) (r : Fin 4096) (c : Fin 128), o = ix3 b r c := ⟨o 0, o 1, o 2, eq_ix3 o⟩
  rw [val_main_v30_apply, val_main_v18_apply, val_main_v29_apply, unflat18, unflat29, out0, out1]
  rfl

end Cert.PairMlp.Ref

end
-- ==== Proof.KernelPayload.lean ====
/-
  The kernel body's stored value, read at an index of the output block, is the pair MLP of the input blocks.

  The body loads a batch's atoms `xb : [1, 64, 128]`, the two halves `wa wb : [128, 128]` of the first layer's weights, the
  bias rows and the second layer's weights. `A = xb · wa` and `B = xb · wb` are two matrix products into zero accumulators,
  i.e. plain sums over the 128 features (changes of float format are the identity on extended reals). The two
  pre-activations are the outer sums `A[i] + B[j] + β0` and `B[i] + A[j] + β0` over `[64, 64, 128]`, laid out as 4096
  rows (row `r` is the pair `(r / 64, r % 64)`), each through `max · 0`, the product with `w1`, the bias `β1`, `max · 0`;
  the stored block is their sum with a leading unit axis.
-/
import proofs.«138209_j10505490006485_1_alg».proof.Proof.Gen.KernelIdeal.Skeleton
import proofs.«138209_j10505490006485_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.PairMlp.Ker

open Cert.KernelIdeal Cert.KernelIdeal.Gen Idealize.ShloMosaic Idealize.ShloMosaic.ValueIdx Cert.PairMlp

/-! ## The two matrix products as sums over the contracted feature -/

theorem lhsA_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhsA_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhsA_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhsA_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

theorem lhsB_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhsB_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhsB_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhsB_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A 64 × 128 by 128 × 128 product into the zero accumulator: row `i`, column `k` is the sum over the features. -/
theorem mm64_apply (l : FVec Ideal S64x128 .bf16) (w : FVec Ideal S128x128 .bf16) (i : Fin 64) (k : Fin 128) :
    matmul dot_S64x128_S128x128_S64x128_1_0_0_1_n_n none l w (constant (F := Ideal) S64x128 .f32 0x00000000#32) (ix2 i k)
      = ∑ f : Fin 128, l (ix2 i f) * w (ix2 f k) := by
  simp only [matmul]
  rw [Ideal.matmul_constant_zero_apply, ← Equiv.sum_comp (ValueIdx.contrEquiv1 dot_S64x128_S128x128_S64x128_1_0_0_1_n_n 128 rfl rfl).symm]
  refine Finset.sum_congr rfl fun f _ => ?_
  have hk := ValueIdx.contrEquiv1_symm_val dot_S64x128_S128x128_S64x128_1_0_0_1_n_n 128 rfl rfl f
  have el : dot_S64x128_S128x128_S64x128_1_0_0_1_n_n.lhsIdx (ix2 i k) ((ValueIdx.contrEquiv1 dot_S64x128_S128x128_S64x128_1_0_0_1_n_n 128 rfl rfl).symm f) = ix2 i f := funext fun a => Fin.ext (by
    match a with
    | ⟨0, _⟩ => exact lhsA_0 _ _
    | ⟨1, _⟩ => exact (lhsA_1 _ _).trans hk)
  have er : dot_S64x128_S128x128_S64x128_1_0_0_1_n_n.rhsIdx (ix2 i k) ((ValueIdx.contrEquiv1 dot_S64x128_S128x128_S64x128_1_0_0_1_n_n 128 rfl rfl).symm f) = ix2 f k := funext fun a => Fin.ext (by
    match a with
    | ⟨0, _⟩ => exact (rhsA_0 _ _).trans hk
    | ⟨1, _⟩ => exact rhsA_1 _ _)
  rw [el, er]

/-- The same for the 4096 pair rows. -/
theorem mm4096_apply (l : FVec Ideal S4096x128 .bf16) (w : FVec Ideal S128x128 .bf16) (i : Fin 4096) (k : Fin 128) :
    matmul dot_S4096x128_S128x128_S4096x128_1_0_0_1_n_n none l w (constant (F := Ideal) S4096x128 .f32 0x00000000#32) (ix2 i k)
      = ∑ f : Fin 128, l (ix2 i f) * w (ix2 f k) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun f _ => ?_
  have hk := ValueIdx.contrEquiv1_symm_val dot_S4096x128_S128x128_S4096x128_1_0_0_1_n_n 128 rfl rfl f
  have el : dot_S4096x128_S128x128_S4096x128_1_0_0_1_n_n.lhsIdx (ix2 i k) ((ValueIdx.contrEquiv1 dot_S4096x128_S128x128_S4096x128_1_0_0_1_n_n 128 rfl rfl).symm f) = ix2 i f := funext fun a => Fin.ext (by
    match a with
    | ⟨0, _⟩ => exact lhsB_0 _ _
    | ⟨1, _⟩ => exact (lhsB_1 _ _).trans hk)
  have er : dot_S4096x128_S128x128_S4096x128_1_0_0_1_n_n.rhsIdx (ix2 i k) ((ValueIdx.contrEquiv1 dot_S4096x128_S128x128_S4096x128_1_0_0_1_n_n 128 rfl rfl).symm f) = ix2 f k := funext fun a => Fin.ext (by
    match a with
    | ⟨0, _⟩ => exact (rhsB_0 _ _).trans hk
    | ⟨1, _⟩ => exact rhsB_1 _ _)
  rw [el, er]

/-! ## The layout steps, read at an index -/

/-- A matrix given a middle unit axis and broadcast along it: entry `(i, j, k)` is the matrix's `(i, k)`. -/
theorem outerI (A : FVec Ideal S64x128 .f32) (h1 : S64x128.ShapeCasts S64x1x128) (h2 : S64x1x128.Broadcasts S64x64x128)
    (i j : Fin 64) (k : Fin 128) : broadcastTo S64x64x128 (shapeCast S64x1x128 A h1) h2 (ix3 i j k) = A (ix2 i k) := by
  refine (broadcastTo_apply _ h2 (ix3 i j k) (ix3 i (0 : Fin 1) k) fun a => ?_).trans ?_
  · match a with
    | ⟨0, _⟩ => show i.val = if (64 : Nat) = 1 then 0 else i.val; rw [if_neg (by decide)]
    | ⟨1, _⟩ => show (0 : Nat) = if (1 : Nat) = 1 then 0 else j.val; rw [if_pos rfl]
    | ⟨2, _⟩ => show k.val = if (128 : Nat) = 1 then 0 else k.val; rw [if_neg (by decide)]
  · refine shapeCast_apply A h1 _ _ ?_
    rw [Shape.rowMajor_val_two, Shape.rowMajor_val_three]
    show i.val * 128 + k.val = (i.val * 1 + 0) * 128 + k.val
    omega

/-- A matrix given a leading unit axis and broadcast along it: entry `(i, j, k)` is the matrix's `(j, k)`. -/
theorem outerJ (B : FVec Ideal S64x128 .f32) (h1 : S64x128.ShapeCasts S1x64x128) (h2 : S1x64x128.Broadcasts S64x64x128)
    (i j : Fin 64) (k : Fin 128) : broadcastTo S64x64x128 (shapeCast S1x64x128 B h1) h2 (ix3 i j k) = B (ix2 j k) := by
  refine (broadcastTo_apply _ h2 (ix3 i j k) (ix3 (0 : Fin 1) j k) fun a => ?_).trans ?_
  · match a with
    | ⟨0, _⟩ => show (0 : Nat) = if (1 : Nat) = 1 then 0 else i.val; rw [if_pos rfl]
    | ⟨1, _⟩ => show j.val = if (64 : Nat) = 1 then 0 else j.val; rw [if_neg (by decide)]
    | ⟨2, _⟩ => show k.val = if (128 : Nat) = 1 then 0 else k.val; rw [if_neg (by decide)]
  · exact shapeCast_ab_1ab_apply B h1 0 j k

/-- A row given two leading unit axes and broadcast along both: entry `(i, j, k)` is the row's `k`. -/
theorem biasRow3 (β : Vec Ideal S128 .f32) (h1 : S128.ShapeCasts S1x1x128) (h2 : S1x1x128.Broadcasts S64x64x128)
    (i j : Fin 64) (k : Fin 128) : broadcastTo S64x64x128 (shapeCast S1x1x128 β h1) h2 (ix3 i j k) = β (ix1 k) := by
  refine (broadcastTo_apply _ h2 (ix3 i j k) (ix3 (0 : Fin 1) (0 : Fin 1) k) fun a => ?_).trans ?_
  · match a with
    | ⟨0, _⟩ => show (0 : Nat) = if (1 : Nat) = 1 then 0 else i.val; rw [if_pos rfl]
    | ⟨1, _⟩ => show (0 : Nat) = if (1 : Nat) = 1 then 0 else j.val; rw [if_pos rfl]
    | ⟨2, _⟩ => show k.val = if (128 : Nat) = 1 then 0 else k.val; rw [if_neg (by decide)]
  · refine shapeCast_apply β h1 _ _ ?_
    rw [Shape.rowMajor_val_one, Shape.rowMajor_val_three]
    show k.val = ((0 : Nat) * 1 + 0) * 128 + k.val
    omega

/-- A row given a leading unit axis and broadcast over the 4096 pair rows: entry `(r, c)` is the row's `c`. -/
theorem biasRow2 (β : Vec Ideal S128 .f32) (h1 : S128.ShapeCasts S1x128) (h2 : S1x128.Broadcasts S4096x128)
    (r : Fin 4096) (c : Fin 128) : broadcastTo S4096x128 (shapeCast S1x128 β h1) h2 (ix2 r c) = β (ix1 c) :=
  (broadcastTo_1b_ab_apply _ h2 r c).trans (shapeCast_a_1a_apply β h1 0 c)

/-- The 64 × 64 pairs laid out as 4096 rows: row `r` is the pair `(r / 64, r % 64)`. -/
theorem pairRow (H : FVec Ideal S64x64x128 .f32) (h : S64x64x128.ShapeCasts S4096x128) (r : Fin 4096) (k : Fin 128) :
    shapeCast S4096x128 H h (ix2 r k) = H (ix3 (rowI r) (rowJ r) k) := by
  refine shapeCast_apply H h _ _ ?_
  rw [Shape.rowMajor_val_three, Shape.rowMajor_val_two]
  show (r.val / 64 * 64 + r.val % 64) * 128 + k.val = r.val * 128 + k.val
  omega

/-! ## The payloads at an index -/

variable (xb : Vec Ideal S1x64x128 .f32) (wa wb : Vec Ideal S128x128 .f32) (β0 : Vec Ideal S128 .f32)
  (w1 : Vec Ideal S128x128 .f32) (β1 : Vec Ideal S128 .f32)

/-- The loaded blocks as the pair MLP takes them. -/
abbrev Xk : Fin 64 → Fin 128 → EReal := fun i f => xb (ix3 (0 : Fin 1) i f)
abbrev Mk (w : Vec Ideal S128x128 .f32) : Fin 128 → Fin 128 → EReal := fun f k => w (ix2 f k)
abbrev Rk (β : Vec Ideal S128 .f32) : Fin 128 → EReal := fun k => β (ix1 k)

/-- `A = xb · wa`. -/
theorem pay3_apply (i : Fin 64) (k : Fin 128) : k0_pay3 (F := Ideal) xb wa (ix2 i k) = proj (Xk xb) (Mk wa) i k := by
  unfold k0_pay3 k0_pay2
  dsimp only
  refine (mm64_apply _ _ i k).trans ?_
  unfold proj
  refine Finset.sum_congr rfl fun f _ => ?_
  rw [truncf_apply, truncf_apply, shapeCast_1ab_ab_apply, shapeCast_self]

/-- `B = xb · wb`. -/
theorem pay4_apply (i : Fin 64) (k : Fin 128) : k0_pay4 (F := Ideal) xb wb (ix2 i k) = proj (Xk xb) (Mk wb) i k := by
  unfold k0_pay4 k0_pay2
  dsimp only
  refine (mm64_apply _ _ i k).trans ?_
  unfold proj
  refine Finset.sum_congr rfl fun f _ => ?_
  rw [truncf_apply, truncf_apply, shapeCast_1ab_ab_apply, shapeCast_self]

/-- The first order's second-layer pre-activation: `relu (A[i] + B[j] + β0) · w1 + β1` at row `r = (i, j)`. -/
theorem pay6_apply (r : Fin 4096) (c : Fin 128) :
    k0_pay6 (F := Ideal) xb wa wb w1 β0 β1 (ix2 r c)
      = (∑ k : Fin 128, hidden (Xk xb) (Mk wa) (Mk wb) (Rk β0) (rowI r) (rowJ r) k * w1 (ix2 k c)) + β1 (ix1 c) := by
  unfold k0_pay6 k0_pay5
  dsimp only
  rw [addf_apply, biasRow2]
  refine congrArg (· + β1 (ix1 c)) ((mm4096_apply _ _ r c).trans (Finset.sum_congr rfl fun k _ => ?_))
  rw [truncf_apply, truncf_apply, pairRow, maximumf_apply, addf_apply, addf_apply, outerI, outerJ, biasRow3,
    pay3_apply, pay4_apply, broadcast_apply]
  rfl

/-- The second order's hidden row: `relu (B[i] + A[j] + β0)` at row `r = (i, j)`. -/
theorem pay7_apply (r : Fin 4096) (k : Fin 128) :
    k0_pay7 (F := Ideal) xb wa wb β0 (ix2 r k) = hidden (Xk xb) (Mk wb) (Mk wa) (Rk β0) (rowI r) (rowJ r) k := by
  unfold k0_pay7
  rw [truncf_apply, pairRow, maximumf_apply, addf_apply, addf_apply, outerI, outerJ, biasRow3,
    pay4_apply, pay3_apply, broadcast_apply]
  rfl

/-- THE STORED BLOCK at `(0, r, c)` is the pair MLP of the loaded blocks at row `r`, channel `c`. -/
theorem pay1_apply (r : Fin 4096) (c : Fin 128) :
    k0_pay1 (F := Ideal) β1 (k0_pay5 w1) (k0_pay6 xb wa wb w1 β0 β1) (k0_pay7 xb wa wb β0) (ix3 (0 : Fin 1) r c)
      = blockOut (Xk xb) (Mk wa) (Mk wb) (Rk β0) (Mk w1) (Rk β1) r c := by
  unfold k0_pay1 k0_pay5
  dsimp only
  rw [shapeCast_ab_1ab_apply, addf_apply, maximumf_apply, maximumf_apply, pay6_apply, addf_apply, biasRow2]
  unfold blockOut layer1
  refine congrArg₂ (· + ·) rfl (congrArg (fun s => relu (s + β1 (ix1 c))) ((mm4096_apply _ _ r c).trans
    (Finset.sum_congr rfl fun k _ => ?_)))
  rw [pay7_apply, truncf_apply]

end Cert.PairMlp.Ker

end
-- ==== Proof.KernelValue.lean ====
/-
  From the blocks to the array: after the run the kernel's result array is the pair MLP of the argument arrays.

  Grid point `t` of the 32 points handles batch `t`: its input block of `x` is batch `t`'s atoms, the weight and bias
  blocks are the whole arrays at every point (the two weight blocks are the top and the bottom 128 rows of `W0`, sliced
  out before the region), and its output block is batch `t` of the result. What the body stores is the pair MLP of
  its blocks, so block `t` of the output is block `t` of `pairOut` of the arguments; the 32 blocks tile the result
  array (index `(b, r, c)` lies in point `b`'s block), so the whole array is `pairOut`.
-/
import proofs.«138209_j10505490006485_1_alg».proof.Proof.Gen.KernelIdeal.Value
import proofs.«138209_j10505490006485_1_alg».proof.Proof.KernelPayload
import proofs.«138209_j10505490006485_1_alg».proof.Proof.Spec
import Idealize.ShloMosaic.Lib.Pipeline.Value
import Idealize.ShloMosaic.Lib.ValueIdx
import Idealize.ShloMosaic.Lib.StableHlo.Run

set_option maxRecDepth 16384

noncomputable section

namespace Cert.PairMlp.Blocks

open Cert.KernelIdeal Cert.KernelIdeal.Gen Idealize.ShloMosaic Idealize.ShloMosaic.TcCoe Idealize.SL.Sem
open Idealize.ShloMosaic.ValueIdx Idealize.ShloMosaic.StableHlo Cert.PairMlp Cert.PairMlp.Ker
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The result array the kernel should end with: the pair MLP of the five argument arrays as launched. -/
def result (c : Dev nD) : S32x4096x128.Idx → EReal :=
  pairOut (m ((c : Thread nD τ).loc main_arg0)) (m ((c : Thread nD τ).loc main_arg1)) (m ((c : Thread nD τ).loc main_arg2))
    (m ((c : Thread nD τ).loc main_arg3)) (m ((c : Thread nD τ).loc main_arg4))

/-- The block index maps over the 32 points: the atoms' and the output's blocks move with the point on the batch axis,
    every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = t.val ∧ win0_6.index t (1 : Fin 3) = 0 ∧ win0_6.index t (2 : Fin 3) = 0 :=
  (by decide +kernel : ∀ t : Fin grid0.N, _)

/-- A grid point as a batch. -/
def batch (t : Fin cfg0.N) : Fin 32 := ⟨t.val, by have h := t.isLt; have hN : cfg0.N = 32 := N_0; omega⟩

/-! ## The two halves of the first layer's weights, sliced out before the region -/

theorem V_top (c : Dev nD) : (V m c main_v0 : S128x128.Idx → EReal)
    = extractStridedSlice S128x128 ![0, 0] (m ((c : Thread nD τ).loc main_arg1)) slices_S256x128_S128x128_0_0 := by
  dsimp only [Gen.V, Gen.hostOps0]; after_results

theorem V_bot (c : Dev nD) : (V m c main_v1 : S128x128.Idx → EReal)
    = extractStridedSlice S128x128 ![128, 0] (m ((c : Thread nD τ).loc main_arg1)) slices_S256x128_S128x128_128_0 := by
  dsimp only [Gen.V, Gen.hostOps0]; after_results

/-! ## Each input block, read as a part of its argument array -/

theorem blk_x (c : Dev nD) (t : Fin cfg0.N) (i : Fin 64) (f : Fin 128) :
    iblk m c 0 t (ix3 (0 : Fin 1) i f) = m ((c : Thread nD τ).loc main_arg0) (ix3 (batch t) i f) := by
  obtain ⟨e0, e1, e2, -⟩ := idx_facts t
  show V m c main_arg0 (((cfg0.win 0).blk t).view.emb (ix3 (0 : Fin 1) i f)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 64 + 1 * i.val = i.val; omega
  | ⟨2, _⟩ => show win0_0.index t (2 : Fin 3) * 128 + 1 * f.val = f.val; omega

theorem blk_wa (c : Dev nD) (t : Fin cfg0.N) (f k : Fin 128) :
    iblk m c 1 t (ix2 f k) = m ((c : Thread nD τ).loc main_arg1) (ix2 (lo f) k) := by
  obtain ⟨-, -, -, e0, e1, -⟩ := idx_facts t
  show V m c main_v0 (((cfg0.win 1).blk t).view.emb (ix2 f k)) = _
  rw [V_top]
  refine extractStridedSlice_apply _ _ _ _ (ix2 (lo f) k) fun a => ?_
  match a with
  | ⟨0, _⟩ => show f.val = 0 + (win0_1.index t (0 : Fin 2) * 128 + 1 * f.val); omega
  | ⟨1, _⟩ => show k.val = 0 + (win0_1.index t (1 : Fin 2) * 128 + 1 * k.val); omega

theorem blk_wb (c : Dev nD) (t : Fin cfg0.N) (f k : Fin 128) :
    iblk m c 2 t (ix2 f k) = m ((c : Thread nD τ).loc main_arg1) (ix2 (hi f) k) := by
  obtain ⟨-, -, -, -, -, e0, e1, -⟩ := idx_facts t
  show V m c main_v1 (((cfg0.win 2).blk t).view.emb (ix2 f k)) = _
  rw [V_bot]
  refine extractStridedSlice_apply _ _ _ _ (ix2 (hi f) k) fun a => ?_
  match a with
  | ⟨0, _⟩ => show 128 + f.val = 128 + (win0_2.index t (0 : Fin 2) * 128 + 1 * f.val); omega
  | ⟨1, _⟩ => show k.val = 0 + (win0_2.index t (1 : Fin 2) * 128 + 1 * k.val); omega

theorem blk_b0 (c : Dev nD) (t : Fin cfg0.N) (k : Fin 128) :
    iblk m c 3 t (ix1 k) = m ((c : Thread nD τ).loc main_arg2) (ix1 k) := by
  obtain ⟨-, -, -, -, -, -, -, e0, -⟩ := idx_facts t
  show V m c main_arg2 (((cfg0.win 3).blk t).view.emb (ix1 k)) = _
  rw [V_main_arg2]
  refine congrArg _ (funext fun a => Fin.ext ?_)
  match a with
  | ⟨0, _⟩ => show win0_3.index t (0 : Fin 1) * 128 + 1 * k.val = k.val; omega

theorem blk_w1 (c : Dev nD) (t : Fin cfg0.N) (k q : Fin 128) :
    iblk m c 4 t (ix2 k q) = m ((c : Thread nD τ).loc main_arg3) (ix2 k q) := by
  obtain ⟨-, -, -, -, -, -, -, -, e0, e1, -⟩ := idx_facts t
  show V m c main_arg3 (((cfg0.win 4).blk t).view.emb (ix2 k q)) = _
  rw [V_main_arg3]
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

theorem blk_b1 (c : Dev nD) (t : Fin cfg0.N) (k : Fin 128) :
    iblk m c 5 t (ix1 k) = m ((c : Thread nD τ).loc main_arg4) (ix1 k) := by
  obtain ⟨-, -, -, -, -, -, -, -, -, -, e0, -⟩ := idx_facts t
  show V m c main_arg4 (((cfg0.win 5).blk t).view.emb (ix1 k)) = _
  rw [V_main_arg4]
  refine congrArg _ (funext fun a => Fin.ext ?_)
  match a with
  | ⟨0, _⟩ => show win0_5.index t (0 : Fin 1) * 128 + 1 * k.val = k.val; omega

/-! ## What a point writes back -/

/-- The stored block as a function of its index: the unit coordinate is `0`. -/
theorem pay1_fun (xb : Vec Ideal S1x64x128 .f32) (wa wb : Vec Ideal S128x128 .f32) (β0 : Vec Ideal S128 .f32)
    (w1 : Vec Ideal S128x128 .f32) (β1 : Vec Ideal S128 .f32) (y : S1x4096x128.Idx) :
    k0_pay1 (F := Ideal) β1 (k0_pay5 w1) (k0_pay6 xb wa wb w1 β0 β1) (k0_pay7 xb wa wb β0) y
      = blockOut (Xk xb) (Mk wa) (Mk wb) (Rk β0) (Mk w1) (Rk β1) (y 1) (y 2) := by
  obtain ⟨u, r, c, rfl⟩ : ∃ (u : Fin 1) (r : Fin 4096) (c : Fin 128), y = ix3 u r c := ⟨y 0, y 1, y 2, eq_ix3 y⟩
  obtain rfl : u = 0 := Subsingleton.elim _ _
  exact pay1_apply xb wa wb β0 w1 β1 r c

/-- The pair MLP of blocks that are parts of the arrays is the pair MLP of the arrays at that batch. -/
theorem block_eq (x : S32x64x128.Idx → EReal) (W0 : S256x128.Idx → EReal) (b0 : S128.Idx → EReal) (W1 : S128x128.Idx → EReal)
    (b1 : S128.Idx → EReal) (xb : Vec Ideal S1x64x128 .f32) (wa wb : Vec Ideal S128x128 .f32) (β0 : Vec Ideal S128 .f32)
    (w1 : Vec Ideal S128x128 .f32) (β1 : Vec Ideal S128 .f32) (b : Fin 32)
    (hx : ∀ i f, xb (ix3 (0 : Fin 1) i f) = x (ix3 b i f)) (ha : ∀ f k, wa (ix2 f k) = W0 (ix2 (lo f) k))
    (hb : ∀ f k, wb (ix2 f k) = W0 (ix2 (hi f) k)) (h0 : ∀ k, β0 (ix1 k) = b0 (ix1 k))
    (h1 : ∀ k q, w1 (ix2 k q) = W1 (ix2 k q)) (h1' : ∀ k, β1 (ix1 k) = b1 (ix1 k)) (r : Fin 4096) (c : Fin 128) :
    blockOut (Xk xb) (Mk wa) (Mk wb) (Rk β0) (Mk w1) (Rk β1) r c = pairAt x W0 b0 W1 b1 b r c := by
  unfold pairAt
  rw [show Xk xb = (fun i f => x (ix3 b i f)) from funext fun i => funext fun f => hx i f,
    show Mk wa = (fun f k => W0 (ix2 (lo f) k)) from funext fun f => funext fun k => ha f k,
    show Mk wb = (fun f k => W0 (ix2 (hi f) k)) from funext fun f => funext fun k => hb f k,
    show Rk β0 = (fun k => b0 (ix1 k)) from funext fun k => h0 k,
    show Mk w1 = (fun k q => W1 (ix2 k q)) from funext fun k => funext fun q => h1 k q,
    show Rk β1 = (fun k => b1 (ix1 k)) from funext fun k => h1' k]

/-- WHAT POINT `t` WRITES BACK is block `t` of the pair MLP of the argument arrays. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz3]
  simp only [View.ld_unit_zero (S := S1x64x128) hz3, View.ld_unit_zero (S := S128x128) hz2, View.ld_unit_zero (S := S128) hz1]
  obtain ⟨-, -, -, -, -, -, -, -, -, -, -, e0, e1, e2⟩ := idx_facts t
  funext y
  have he : ((cfg0.win 6).blk t).view.emb y = ix3 (batch t) (y 1 : Fin 4096) (y 2 : Fin 128) := by
    have h0 : (y 0).val < 1 := (y 0).isLt
    refine funext fun a => Fin.ext ?_
    match a with
    | ⟨0, _⟩ => show win0_6.index t (0 : Fin 3) * 1 + 1 * (y 0).val = t.val; omega
    | ⟨1, _⟩ => show win0_6.index t (1 : Fin 3) * 4096 + 1 * (y 1).val = (y 1).val; omega
    | ⟨2, _⟩ => show win0_6.index t (2 : Fin 3) * 128 + 1 * (y 2).val = (y 2).val; omega
  refine (pay1_fun (iblk m c 0 t) (iblk m c 1 t) (iblk m c 2 t) (iblk m c 3 t) (iblk m c 4 t) (iblk m c 5 t) y).trans ?_
  show _ = result m c (((cfg0.win 6).blk t).view.emb y)
  rw [he]
  exact block_eq _ _ _ _ _ (iblk m c 0 t) (iblk m c 1 t) (iblk m c 2 t) (iblk m c 3 t) (iblk m c 4 t) (iblk m c 5 t) (batch t)
    (blk_x m c t) (blk_wa m c t) (blk_wb m c t) (blk_b0 m c t) (blk_w1 m c t) (blk_b1 m c t) (y 1) (y 2)

/-! ## The cover, the array and the run -/

/-- An index of the result array is in point `t`'s block iff each coordinate is in the block's range on its axis. -/
theorem mem_blk (t : Fin cfg0.N) (i : S32x4096x128.Idx) :
    i ∈ ((cfg0.win 6).blk t).view.set ↔ ∀ a : Fin 3, win0_6.index t a * S1x4096x128.size a ≤ (i a).val ∧ (i a).val < win0_6.index t a * S1x4096x128.size a + S1x4096x128.size a := by
  show i ∈ ((View.whole main_v2).slice (win0_6.rect t)).set ↔ _
  rw [View.set_slice_whole, Rect.mem_set_unit]
  exact Iff.rfl

/-- Index `(b, r, c)` lies in point `b`'s block. -/
theorem cover (i : S32x4096x128.Idx) : ∃ t : Fin cfg0.N, (cfg0.win 6).flush t = true ∧ i ∈ ((cfg0.win 6).blk t).view.set := by
  have hN : cfg0.N = 32 := N_0
  have h0 : (i 0).val < 32 := (i 0).isLt
  have h1 : (i 1).val < 4096 := (i 1).isLt
  have h2 : (i 2).val < 128 := (i 2).isLt
  obtain ⟨t, ht⟩ : ∃ t : Fin cfg0.N, t.val = (i 0).val := ⟨⟨(i 0).val, by omega⟩, rfl⟩
  obtain ⟨-, -, -, -, -, -, -, -, -, -, -, e0, e1, e2⟩ := idx_facts t
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 4096 ≤ (i 1).val ∧ (i 1).val < win0_6.index t (1 : Fin 3) * 4096 + 4096; omega
  | ⟨2, _⟩ => show win0_6.index t (2 : Fin 3) * 128 ≤ (i 2).val ∧ (i 2).val < win0_6.index t (2 : Fin 3) * 128 + 128; omega

/-- THE ARRAY after the run is the pair MLP of the argument arrays. -/
theorem final (c : Dev nD) : (dats m 0 c).arrAt 6 cfg0.N = result m c :=
  (dats m 0 c).arrAt_eq_of_cover 6 (result m c) (fun t _ => flushed_eq m c t) cover

/-- The kernel's run: the result array ends at `result`, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.PairMlp.Blocks

end
-- ==== Proof.lean ====
/-
  The pair MLP kernel against its reference, over the extended reals.

  For every batch `b` and every ordered pair of atoms `(i, j)` the reference feeds the concatenations `[x_i, x_j]` and
  `[x_j, x_i]` through `relu (· W0 + b0)`, `relu (· W1 + b1)` and adds the two results. The kernel, one batch per grid
  point, uses that the first layer is linear in the concatenation: with `Wa`, `Wb` the top and the bottom half of `W0`,
  `[x_i, x_j] · W0 = x_i · Wa + x_j · Wb`, so it forms `A = x · Wa` and `B = x · Wb` once and takes the outer sums
  `A[i] + B[j] + b0` and `B[i] + A[j] + b0` before the ReLU and the second layer.

  Both sides are shown to be one function of the argument arrays, `PairMlp.pairOut` (Proof/Spec.lean): the reference by
  splitting its 256-term sums into two 128-term sums (Proof/RefValue.lean), the kernel by reading its stored block at an
  index (Proof/KernelPayload.lean) and tiling the result array by the 32 batches' blocks (Proof/KernelValue.lean). The
  only law used between the two sides is that a finite sum of extended reals may be regrouped and that `+` commutes,
  which needs no finiteness; the precondition is not opened. A change of float format is the identity on extended
  reals and a matrix product into a zero accumulator is the plain sum of products, on both sides alike.

  The idealization rewrote nothing, so the kernel's idealized text is its own text read over the extended reals.
-/
import proofs.«138209_j10505490006485_1_alg».proof.Defs
import proofs.«138209_j10505490006485_1_alg».proof.Proof.Gen.Kernel
import proofs.«138209_j10505490006485_1_alg».proof.Proof.Gen.Kernel.Skeleton
import proofs.«138209_j10505490006485_1_alg».proof.Proof.Gen.Kernel.Launch
import proofs.«138209_j10505490006485_1_alg».proof.Proof.Gen.Kernel.Points
import proofs.«138209_j10505490006485_1_alg».proof.Proof.Gen.Kernel.Frame
import proofs.«138209_j10505490006485_1_alg».proof.Proof.Gen.KernelIdeal
import proofs.«138209_j10505490006485_1_alg».proof.Proof.Gen.KernelIdeal.Skeleton
import proofs.«138209_j10505490006485_1_alg».proof.Proof.Gen.KernelIdeal.Launch
import proofs.«138209_j10505490006485_1_alg».proof.Proof.Gen.KernelIdeal.Points
import proofs.«138209_j10505490006485_1_alg».proof.Proof.Gen.KernelIdeal.Frame
import proofs.«138209_j10505490006485_1_alg».proof.Proof.Gen.ReferenceIdeal
import proofs.«138209_j10505490006485_1_alg».proof.Proof.Gen.Pre_finite_inputs
import proofs.«138209_j10505490006485_1_alg».proof.Proof.Gen.KernelIdeal.Value
import proofs.«138209_j10505490006485_1_alg».proof.Proof.Gen.ReferenceIdeal.Run
import proofs.«138209_j10505490006485_1_alg».proof.Proof.Gen.ReferenceIdeal.Read
import proofs.«138209_j10505490006485_1_alg».proof.Proof.RefValue
import proofs.«138209_j10505490006485_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- From memories that agree on the five arguments, the kernel's result array and the reference's both end at the
    pair MLP of those arguments. -/
theorem algebraic : Cert.algebraic_KernelIdeal_ReferenceIdeal := by
  intro m ρ m' ρ' _ hagree
  refine ⟨fun c => Cert.PairMlp.Blocks.result m c, Cert.PairMlp.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.PairMlp.Ref.result_eq, (hagree c).1, (hagree c).2.1, (hagree c).2.2.1,
    (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
